-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1048576x32 : Shape := ⟨2, ![1048576, 32]⟩
abbrev S_ : Shape := ⟨0, ![]⟩
abbrev S1048576 : Shape := ⟨1, ![1048576]⟩
abbrev S1048576x1 : Shape := ⟨2, ![1048576, 1]⟩
abbrev S524288x32 : Shape := ⟨2, ![524288, 32]⟩
abbrev S524288 : Shape := ⟨1, ![524288]⟩
abbrev S524288x1 : Shape := ⟨2, ![524288, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 100
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1048576x32, .f32⟩
  | .hbm, ⟨4, _⟩ => ⟨S1048576x32, .f32⟩
  | .hbm, ⟨5, _⟩ => ⟨S_, .f32⟩
  | .hbm, ⟨6, _⟩ => ⟨S1048576, .f32⟩
  | .hbm, ⟨7, _⟩ => ⟨S1048576x1, .f32⟩
  | .hbm, ⟨8, _⟩ => ⟨S_, .f32⟩
  | .hbm, ⟨9, _⟩ => ⟨S1048576x1, .f32⟩
  | .hbm, ⟨10, _⟩ => ⟨S1048576x1, .i1⟩
  | .hbm, ⟨11, _⟩ => ⟨S_, .f32⟩
  | .hbm, ⟨12, _⟩ => ⟨S_, .f32⟩
  | .hbm, ⟨13, _⟩ => ⟨S1048576x1, .f32⟩
  | .hbm, ⟨14, _⟩ => ⟨S1048576x1, .f32⟩
  | .hbm, ⟨15, _⟩ => ⟨S1048576x1, .f32⟩
  | .hbm, ⟨16, _⟩ => ⟨S_, .f32⟩
  | .hbm, ⟨17, _⟩ => ⟨S_, .f32⟩
  | .hbm, ⟨18, _⟩ => ⟨S1048576x1, .f32⟩
  | .hbm, ⟨19, _⟩ => ⟨S1048576x1, .f32⟩
  | .hbm, ⟨20, _⟩ => ⟨S1048576x1, .f32⟩
  | .hbm, ⟨21, _⟩ => ⟨S_, .f32⟩
  | .hbm, ⟨22, _⟩ => ⟨S1048576x1, .f32⟩
  | .hbm, ⟨23, _⟩ => ⟨S1048576x1, .f32⟩
  | .hbm, ⟨24, _⟩ => ⟨S_, .f32⟩
  | .hbm, ⟨25, _⟩ => ⟨S1048576x1, .f32⟩
  | .hbm, ⟨26, _⟩ => ⟨S1048576x1, .f32⟩
  | .hbm, ⟨27, _⟩ => ⟨S1048576x1, .f32⟩
  | .hbm, ⟨28, _⟩ => ⟨S1048576x32, .f32⟩
  | .hbm, ⟨29, _⟩ => ⟨S1048576x32, .f32⟩
  | .hbm, ⟨30, _⟩ => ⟨S1048576x32, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S1048576x32, .f32⟩
  | .hbm, ⟨35, _⟩ => ⟨S1048576x32, .f32⟩
  | .hbm, ⟨36, _⟩ => ⟨S_, .f32⟩
  | .hbm, ⟨37, _⟩ => ⟨S1048576x32, .f32⟩
  | .hbm, ⟨38, _⟩ => ⟨S1048576x32, .f32⟩
  | .hbm, ⟨39, _⟩ => ⟨S1048576x32, .f32⟩
  | .hbm, ⟨40, _⟩ => ⟨S1048576x32, .f32⟩
  | .hbm, ⟨41, _⟩ => ⟨S_, .f32⟩
  | .hbm, ⟨42, _⟩ => ⟨S1048576x1, .f32⟩
  | .hbm, ⟨43, _⟩ => ⟨S1048576x1, .i1⟩
  | .hbm, ⟨44, _⟩ => ⟨S_, .f32⟩
  | .hbm, ⟨45, _⟩ => ⟨S1048576x32, .f32⟩
  | .hbm, ⟨46, _⟩ => ⟨S1048576x32, .i1⟩
  | .hbm, ⟨47, _⟩ => ⟨S1048576x32, .f32⟩
  | .hbm, ⟨48, _⟩ => ⟨S8192x4096, .f32⟩
  | .hbm, ⟨49, _⟩ => ⟨S524288x32, .f32⟩
  | .hbm, ⟨50, _⟩ => ⟨S524288x32, .f32⟩
  | .hbm, ⟨51, _⟩ => ⟨S_, .f32⟩
  | .hbm, ⟨52, _⟩ => ⟨S524288, .f32⟩
  | .hbm, ⟨53, _⟩ => ⟨S524288x1, .f32⟩
  | .hbm, ⟨54, _⟩ => ⟨S_, .f32⟩
  | .hbm, ⟨55, _⟩ => ⟨S524288x1, .f32⟩
  | .hbm, ⟨56, _⟩ => ⟨S524288x1, .i1⟩
  | .hbm, ⟨57, _⟩ => ⟨S_, .f32⟩
  | .hbm, ⟨58, _⟩ => ⟨S_, .f32⟩
  | .hbm, ⟨59, _⟩ => ⟨S524288x1, .f32⟩
  | .hbm, ⟨60, _⟩ => ⟨S524288x1, .f32⟩
  | .hbm, ⟨61, _⟩ => ⟨S524288x1, .f32⟩
  | .hbm, ⟨62, _⟩ => ⟨S_, .f32⟩
  | .hbm, ⟨63, _⟩ => ⟨S_, .f32⟩
  | .hbm, ⟨64, _⟩ => ⟨S524288x1, .f32⟩
  | .hbm, ⟨65, _⟩ => ⟨S524288x1, .f32⟩
  | .hbm, ⟨66, _⟩ => ⟨S524288x1, .f32⟩
  | .hbm, ⟨67, _⟩ => ⟨S_, .f32⟩
  | .hbm, ⟨68, _⟩ => ⟨S524288x1, .f32⟩
  | .hbm, ⟨69, _⟩ => ⟨S524288x1, .f32⟩
  | .hbm, ⟨70, _⟩ => ⟨S_, .f32⟩
  | .hbm, ⟨71, _⟩ => ⟨S524288x1, .f32⟩
  | .hbm, ⟨72, _⟩ => ⟨S524288x1, .f32⟩
  | .hbm, ⟨73, _⟩ => ⟨S524288x1, .f32⟩
  | .hbm, ⟨74, _⟩ => ⟨S524288x32, .f32⟩
  | .hbm, ⟨75, _⟩ => ⟨S524288x32, .f32⟩
  | .hbm, ⟨76, _⟩ => ⟨S524288x32, .f32⟩
  | .hbm, ⟨77, _⟩ => ⟨S_, .i32⟩
  | .hbm, ⟨78, _⟩ => ⟨S_, .i32⟩
  | .hbm, ⟨79, _⟩ => ⟨S_, .f32⟩
  | .hbm, ⟨80, _⟩ => ⟨S524288x32, .f32⟩
  | .hbm, ⟨81, _⟩ => ⟨S524288x32, .f32⟩
  | .hbm, ⟨82, _⟩ => ⟨S_, .f32⟩
  | .hbm, ⟨83, _⟩ => ⟨S524288x32, .f32⟩
  | .hbm, ⟨84, _⟩ => ⟨S524288x32, .f32⟩
  | .hbm, ⟨85, _⟩ => ⟨S524288x32, .f32⟩
  | .hbm, ⟨86, _⟩ => ⟨S524288x32, .f32⟩
  | .hbm, ⟨87, _⟩ => ⟨S_, .f32⟩
  | .hbm, ⟨88, _⟩ => ⟨S524288x1, .f32⟩
  | .hbm, ⟨89, _⟩ => ⟨S524288x1, .i1⟩
  | .hbm, ⟨90, _⟩ => ⟨S_, .f32⟩
  | .hbm, ⟨91, _⟩ => ⟨S524288x32, .f32⟩
  | .hbm, ⟨92, _⟩ => ⟨S524288x32, .i1⟩
  | .hbm, ⟨93, _⟩ => ⟨S524288x32, .f32⟩
  | .hbm, ⟨94, _⟩ => ⟨S4096x4096, .f32⟩
  | .hbm, ⟨95, _⟩ => ⟨S8192x4096, .bf16⟩
  | .hbm, ⟨96, _⟩ => ⟨S4096x4096, .bf16⟩
  | .hbm, ⟨97, _⟩ => ⟨S4096x4096, .bf16⟩
  | .hbm, ⟨98, _⟩ => ⟨S1x4096, .f32⟩
  | .hbm, ⟨99, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_5 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_call3_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_call4_v0 : Ref sig .tc := ⟨.hbm, 58, rfl⟩
abbrev main_call4_v1 : Ref sig .tc := ⟨.hbm, 59, rfl⟩
abbrev main_v34 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_14 : Ref sig .tc := ⟨.hbm, 77, rfl⟩
abbrev main_c_15 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_16 : Ref sig .tc := ⟨.hbm, 87, rfl⟩
abbrev main_v51 : Ref sig .tc := ⟨.hbm, 88, rfl⟩
abbrev main_v52 : Ref sig .tc := ⟨.hbm, 89, rfl⟩
abbrev main_cst_17 : Ref sig .tc := ⟨.hbm, 90, rfl⟩
abbrev main_v53 : Ref sig .tc := ⟨.hbm, 91, rfl⟩
abbrev main_call7_v0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8192x4096_S1048576x32 : S8192x4096.ShapeCasts S1048576x32
  reducesTo_S1048576x32_S1048576_d1 : S1048576x32.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x32_0_1 : S1048576x1.BroadcastsInDim S1048576x32 (![0, 1] : Fin 2 → Fin S1048576x32.rank)
  bcast_S_S1048576x32 : S_.BroadcastsInDim S1048576x32 (![] : Fin 0 → Fin S1048576x32.rank)
  shapeCasts_S1048576x32_S8192x4096 : S1048576x32.ShapeCasts S8192x4096
  shapeCasts_S4096x4096_S524288x32 : S4096x4096.ShapeCasts S524288x32
  reducesTo_S524288x32_S524288_d1 : S524288x32.ReducesTo [1] S524288
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x32_0_1 : S524288x1.BroadcastsInDim S524288x32 (![0, 1] : Fin 2 → Fin S524288x32.rank)
  bcast_S_S524288x32 : S_.BroadcastsInDim S524288x32 (![] : Fin 0 → Fin S524288x32.rank)
  shapeCasts_S524288x32_S4096x4096 : S524288x32.ShapeCasts S4096x4096
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v56) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1048576x32 : Shape := ⟨2, ![1048576, 32]⟩
abbrev S_ : Shape := ⟨0, ![]⟩
abbrev S1048576 : Shape := ⟨1, ![1048576]⟩
abbrev S1048576x1 : Shape := ⟨2, ![1048576, 1]⟩
abbrev S524288x32 : Shape := ⟨2, ![524288, 32]⟩
abbrev S524288 : Shape := ⟨1, ![524288]⟩
abbrev S524288x1 : Shape := ⟨2, ![524288, 1]⟩
abbrev S1x4096 : Shape := ⟨2, ![1, 4096]⟩

abbrev nBuf : Space → Nat
  | .hbm => 100
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1048576x32, .f32⟩
  | .hbm, ⟨4, _⟩ => ⟨S1048576x32, .f32⟩
  | .hbm, ⟨5, _⟩ => ⟨S_, .f32⟩
  | .hbm, ⟨6, _⟩ => ⟨S1048576, .f32⟩
  | .hbm, ⟨7, _⟩ => ⟨S1048576x1, .f32⟩
  | .hbm, ⟨8, _⟩ => ⟨S_, .f32⟩
  | .hbm, ⟨9, _⟩ => ⟨S1048576x1, .f32⟩
  | .hbm, ⟨10, _⟩ => ⟨S1048576x1, .i1⟩
  | .hbm, ⟨11, _⟩ => ⟨S_, .f32⟩
  | .hbm, ⟨12, _⟩ => ⟨S_, .f32⟩
  | .hbm, ⟨13, _⟩ => ⟨S1048576x1, .f32⟩
  | .hbm, ⟨14, _⟩ => ⟨S1048576x1, .f32⟩
  | .hbm, ⟨15, _⟩ => ⟨S1048576x1, .f32⟩
  | .hbm, ⟨16, _⟩ => ⟨S_, .f32⟩
  | .hbm, ⟨17, _⟩ => ⟨S_, .f32⟩
  | .hbm, ⟨18, _⟩ => ⟨S1048576x1, .f32⟩
  | .hbm, ⟨19, _⟩ => ⟨S1048576x1, .f32⟩
  | .hbm, ⟨20, _⟩ => ⟨S1048576x1, .f32⟩
  | .hbm, ⟨21, _⟩ => ⟨S_, .f32⟩
  | .hbm, ⟨22, _⟩ => ⟨S1048576x1, .f32⟩
  | .hbm, ⟨23, _⟩ => ⟨S1048576x1, .f32⟩
  | .hbm, ⟨24, _⟩ => ⟨S_, .f32⟩
  | .hbm, ⟨25, _⟩ => ⟨S1048576x1, .f32⟩
  | .hbm, ⟨26, _⟩ => ⟨S1048576x1, .f32⟩
  | .hbm, ⟨27, _⟩ => ⟨S1048576x1, .f32⟩
  | .hbm, ⟨28, _⟩ => ⟨S1048576x32, .f32⟩
  | .hbm, ⟨29, _⟩ => ⟨S1048576x32, .f32⟩
  | .hbm, ⟨30, _⟩ => ⟨S1048576x32, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S1048576x32, .f32⟩
  | .hbm, ⟨35, _⟩ => ⟨S1048576x32, .f32⟩
  | .hbm, ⟨36, _⟩ => ⟨S_, .f32⟩
  | .hbm, ⟨37, _⟩ => ⟨S1048576x32, .f32⟩
  | .hbm, ⟨38, _⟩ => ⟨S1048576x32, .f32⟩
  | .hbm, ⟨39, _⟩ => ⟨S1048576x32, .f32⟩
  | .hbm, ⟨40, _⟩ => ⟨S1048576x32, .f32⟩
  | .hbm, ⟨41, _⟩ => ⟨S_, .f32⟩
  | .hbm, ⟨42, _⟩ => ⟨S1048576x1, .f32⟩
  | .hbm, ⟨43, _⟩ => ⟨S1048576x1, .i1⟩
  | .hbm, ⟨44, _⟩ => ⟨S_, .f32⟩
  | .hbm, ⟨45, _⟩ => ⟨S1048576x32, .f32⟩
  | .hbm, ⟨46, _⟩ => ⟨S1048576x32, .i1⟩
  | .hbm, ⟨47, _⟩ => ⟨S1048576x32, .f32⟩
  | .hbm, ⟨48, _⟩ => ⟨S8192x4096, .f32⟩
  | .hbm, ⟨49, _⟩ => ⟨S524288x32, .f32⟩
  | .hbm, ⟨50, _⟩ => ⟨S524288x32, .f32⟩
  | .hbm, ⟨51, _⟩ => ⟨S_, .f32⟩
  | .hbm, ⟨52, _⟩ => ⟨S524288, .f32⟩
  | .hbm, ⟨53, _⟩ => ⟨S524288x1, .f32⟩
  | .hbm, ⟨54, _⟩ => ⟨S_, .f32⟩
  | .hbm, ⟨55, _⟩ => ⟨S524288x1, .f32⟩
  | .hbm, ⟨56, _⟩ => ⟨S524288x1, .i1⟩
  | .hbm, ⟨57, _⟩ => ⟨S_, .f32⟩
  | .hbm, ⟨58, _⟩ => ⟨S_, .f32⟩
  | .hbm, ⟨59, _⟩ => ⟨S524288x1, .f32⟩
  | .hbm, ⟨60, _⟩ => ⟨S524288x1, .f32⟩
  | .hbm, ⟨61, _⟩ => ⟨S524288x1, .f32⟩
  | .hbm, ⟨62, _⟩ => ⟨S_, .f32⟩
  | .hbm, ⟨63, _⟩ => ⟨S_, .f32⟩
  | .hbm, ⟨64, _⟩ => ⟨S524288x1, .f32⟩
  | .hbm, ⟨65, _⟩ => ⟨S524288x1, .f32⟩
  | .hbm, ⟨66, _⟩ => ⟨S524288x1, .f32⟩
  | .hbm, ⟨67, _⟩ => ⟨S_, .f32⟩
  | .hbm, ⟨68, _⟩ => ⟨S524288x1, .f32⟩
  | .hbm, ⟨69, _⟩ => ⟨S524288x1, .f32⟩
  | .hbm, ⟨70, _⟩ => ⟨S_, .f32⟩
  | .hbm, ⟨71, _⟩ => ⟨S524288x1, .f32⟩
  | .hbm, ⟨72, _⟩ => ⟨S524288x1, .f32⟩
  | .hbm, ⟨73, _⟩ => ⟨S524288x1, .f32⟩
  | .hbm, ⟨74, _⟩ => ⟨S524288x32, .f32⟩
  | .hbm, ⟨75, _⟩ => ⟨S524288x32, .f32⟩
  | .hbm, ⟨76, _⟩ => ⟨S524288x32, .f32⟩
  | .hbm, ⟨77, _⟩ => ⟨S_, .i32⟩
  | .hbm, ⟨78, _⟩ => ⟨S_, .i32⟩
  | .hbm, ⟨79, _⟩ => ⟨S_, .f32⟩
  | .hbm, ⟨80, _⟩ => ⟨S524288x32, .f32⟩
  | .hbm, ⟨81, _⟩ => ⟨S524288x32, .f32⟩
  | .hbm, ⟨82, _⟩ => ⟨S_, .f32⟩
  | .hbm, ⟨83, _⟩ => ⟨S524288x32, .f32⟩
  | .hbm, ⟨84, _⟩ => ⟨S524288x32, .f32⟩
  | .hbm, ⟨85, _⟩ => ⟨S524288x32, .f32⟩
  | .hbm, ⟨86, _⟩ => ⟨S524288x32, .f32⟩
  | .hbm, ⟨87, _⟩ => ⟨S_, .f32⟩
  | .hbm, ⟨88, _⟩ => ⟨S524288x1, .f32⟩
  | .hbm, ⟨89, _⟩ => ⟨S524288x1, .i1⟩
  | .hbm, ⟨90, _⟩ => ⟨S_, .f32⟩
  | .hbm, ⟨91, _⟩ => ⟨S524288x32, .f32⟩
  | .hbm, ⟨92, _⟩ => ⟨S524288x32, .i1⟩
  | .hbm, ⟨93, _⟩ => ⟨S524288x32, .f32⟩
  | .hbm, ⟨94, _⟩ => ⟨S4096x4096, .f32⟩
  | .hbm, ⟨95, _⟩ => ⟨S4096x4096, .f32⟩
  | .hbm, ⟨96, _⟩ => ⟨S8192x4096, .f32⟩
  | .hbm, ⟨97, _⟩ => ⟨S1x4096, .f32⟩
  | .hbm, ⟨98, _⟩ => ⟨S8192x4096, .f32⟩
  | .hbm, ⟨99, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_5 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_call3_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_call4_v0 : Ref sig .tc := ⟨.hbm, 58, rfl⟩
abbrev main_call4_v1 : Ref sig .tc := ⟨.hbm, 59, rfl⟩
abbrev main_v34 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_14 : Ref sig .tc := ⟨.hbm, 77, rfl⟩
abbrev main_c_15 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_16 : Ref sig .tc := ⟨.hbm, 87, rfl⟩
abbrev main_v51 : Ref sig .tc := ⟨.hbm, 88, rfl⟩
abbrev main_v52 : Ref sig .tc := ⟨.hbm, 89, rfl⟩
abbrev main_cst_17 : Ref sig .tc := ⟨.hbm, 90, rfl⟩
abbrev main_v53 : Ref sig .tc := ⟨.hbm, 91, rfl⟩
abbrev main_call7_v0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩

abbrev nD : Nat := 1
abbrev τ : Topo := Topo.v7x

variable {F : FTy → Type} [FloatOps F]

class Facts₀ : Prop where
  shapeCasts_S8192x4096_S1048576x32 : S8192x4096.ShapeCasts S1048576x32
  reducesTo_S1048576x32_S1048576_d1 : S1048576x32.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x32_0_1 : S1048576x1.BroadcastsInDim S1048576x32 (![0, 1] : Fin 2 → Fin S1048576x32.rank)
  bcast_S_S1048576x32 : S_.BroadcastsInDim S1048576x32 (![] : Fin 0 → Fin S1048576x32.rank)
  shapeCasts_S1048576x32_S8192x4096 : S1048576x32.ShapeCasts S8192x4096
  shapeCasts_S4096x4096_S524288x32 : S4096x4096.ShapeCasts S524288x32
  reducesTo_S524288x32_S524288_d1 : S524288x32.ReducesTo [1] S524288
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x32_0_1 : S524288x1.BroadcastsInDim S524288x32 (![0, 1] : Fin 2 → Fin S524288x32.rank)
  bcast_S_S524288x32 : S_.BroadcastsInDim S524288x32 (![] : Fin 0 → Fin S524288x32.rank)
  shapeCasts_S524288x32_S4096x4096 : S524288x32.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
import proofs.«176086_j4698694222253_1_alg».proof.Proof.Gen.KernelIdeal.Frame
import Idealize.ShloMosaic.Lib.Pipeline.Value
import Idealize.ShloMosaic.Lib.Tactic

/-! # What one grid point leaves behind, as the body's own arithmetic

The body keeps a 1024 x 1024 accumulator in scratch. At the first point of a run over the contraction
axis it zeroes the accumulator and adds the point's tile product; at every later point it adds that
point's tile product to what the point before left; at the last point it also writes accumulator plus
bias row into the output block. Each lemma here says that what a case leaves in the scratch, or in the
output block, is the corresponding pure term of the point's input blocks (and of what the scratch held
before): the stores go through the whole buffer, so the last store's payload is what remains, and a load
of the buffer after a store reads that store's payload. -/

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-buffer access. -/
theorem hz : (![0, 0] : Fin 2 → Nat) = fun _ => 0 := by
  funext a; match a with | ⟨0, _⟩ => rfl | ⟨1, _⟩ => rfl

/-- First point of a run: the scratch ends at zero plus the tile product. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz]
  simp only [View.readCov_unit_zero (S := S1024x1024) _ hz, View.readAt_eq_ld, harg3.read_unread, harg4.read_unread, harg5.read_unread, harg7.read_unread,
    View.ld_unit_zero (S := S1024x1024) hz, View.ld_unit_zero (S := S1x1024) hz]

/-- A middle point: the scratch ends at what it held plus the tile product. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) hz]
  simp only [View.readCov_unit_zero (S := S1024x1024) _ hz, View.readAt_eq_ld, harg3.read_unread, harg4.read_unread, harg5.read_unread, harg7.read_unread,
    View.ld_unit_zero (S := S1024x1024) hz, View.ld_unit_zero (S := S1x1024) hz]

/-- The last point: the scratch likewise, -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) hz]
  simp only [View.readCov_unit_zero (S := S1024x1024) _ hz, View.readAt_eq_ld, harg3.read_unread, harg4.read_unread, harg5.read_unread, harg7.read_unread,
    View.ld_unit_zero (S := S1024x1024) hz, View.ld_unit_zero (S := S1x1024) hz]

/-- and the output block: the accumulator just stored, plus the bias row broadcast down the rows. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) hz]
  simp only [View.readCov_unit_zero (S := S1024x1024) _ hz, View.readAt_eq_ld, harg3.read_unread, harg4.read_unread, harg5.read_unread, harg7.read_unread,
    View.ld_unit_zero (S := S1024x1024) hz, View.ld_unit_zero (S := S1x1024) hz]

end Cert.KernelIdeal.Pieces

end
-- ==== Proof.Payload.lean ====
import proofs.«176086_j4698694222253_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! # The body's arithmetic at one entry of a tile, on the extended reals

Over exact arithmetic the matrix unit's product of two 1024 x 1024 tiles into a zero accumulator is, at
entry (p, q), the plain sum over kk of a[p, kk] * b[kk, q] (the bf16 operands are extended reals like any
other float there). So the accumulator update is "what it held, plus that sum", the reset value is zero,
and the epilogue adds the bias row's entry q. -/

noncomputable section

namespace Cert.KernelIdeal.Payload

open Cert.KernelIdeal Cert.KernelIdeal.Gen Idealize.ShloMosaic Idealize.ShloMosaic.ValueIdx

/-- The product's left operand is read at the output's row (axis 0 is not contracted), -/
theorem lhs_tile_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- and at the contraction index on axis 1; -/
theorem lhs_tile_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand at the contraction index on axis 0, -/
theorem rhs_tile_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- and at the output's column on axis 1. -/
theorem rhs_tile_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- One tile product into a zero accumulator, at entry (p, q): the sum over the tile's 1024 contraction indices. -/
theorem matmul_tile (a b : FVec Ideal S1024x1024 .bf16) (p q : Fin 1024) :
    matmul dot_S1024x1024_S1024x1024_S1024x1024_1_0_0_1_n_n none a b (constant (F := Ideal) S1024x1024 .f32 0x00000000#32) (ix2 p q)
      = ∑ kk : Fin 1024, a (ix2 p kk) * b (ix2 kk q) := by
  show FloatOps.matmul dot_S1024x1024_S1024x1024_S1024x1024_1_0_0_1_n_n none a b (constant (F := Ideal) S1024x1024 .f32 0x00000000#32) (ix2 p q) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]

/-- The reset value: zero everywhere. -/
theorem reset_apply (y : S1024x1024.Idx) : k0_pay1 (F := Ideal) y = 0 := by
  unfold k0_pay1
  simp only [shapeCast_self]
  exact Ideal.ofBits_zero_f32

/-- The accumulator update at entry (p, q): what the accumulator held there plus the tile product's entry. -/
theorem update_apply (acc : Vec Ideal S1024x1024 .f32) (a b : Vec Ideal S1024x1024 .bf16) (p q : Fin 1024) :
    k0_pay2 (F := Ideal) acc a b (ix2 p q) = acc (ix2 p q) + ∑ kk : Fin 1024, a (ix2 p kk) * b (ix2 kk q) := by
  unfold k0_pay2
  simp only [shapeCast_self]
  exact congrArg (fun v => acc (ix2 p q) + v) (matmul_tile a b p q)

/-- The epilogue at entry (p, q): the accumulator's entry plus the bias row's entry q. -/
theorem epilogue_apply (v : Vec Ideal S1024x1024 .f32) (b : Vec Ideal S1x1024 .f32) (p q : Fin 1024) :
    k0_pay3 (F := Ideal) v b (ix2 p q) = v (ix2 p q) + b (ix2 (0 : Fin 1) q) := by
  unfold k0_pay3
  simp only [shapeCast_self]
  exact congrArg (fun w => v (ix2 p q) + w) (broadcastTo_1b_ab_apply b broadcasts_S1x1024_S1024x1024 p q)

end Cert.KernelIdeal.Payload

end
-- ==== Proof.Algebra.lean ====
import Mathlib.Algebra.BigOperators.Fin
import Mathlib.Algebra.BigOperators.Intervals

/-! # A long sum cut into consecutive blocks

The contraction of a matrix product runs over 4096 terms; a tiled product adds them up 1024 at a time.
Both are the same sum in any commutative additive monoid (no cancellation, no distributivity: this holds
on the extended reals, infinities included). -/

namespace Cert.Algebra

open Finset

/-- The sum of `a * b` consecutive terms is the sum over `a` consecutive blocks of each block's `b` terms. -/
theorem sum_range_mul_blocks {β : Type*} [AddCommMonoid β] (g : ℕ → β) (b : ℕ) :
    ∀ a : ℕ, ∑ k ∈ range (a * b), g k = ∑ s ∈ range a, ∑ kk ∈ range b, g (s * b + kk)
  | 0 => by simp
  | a + 1 => by
    rw [Nat.succ_mul, sum_range_add, sum_range_mul_blocks g b a, sum_range_succ]

/-- A sum over the 4096 contraction indices is the sum over the four blocks `s` of the 1024 indices
    `s * 1024 + kk` inside each. (The block number is reduced mod 4 only so that the index is in range for
    every natural `s`; on `range 4` it changes nothing.) -/
theorem sum_blocks {β : Type*} [AddCommMonoid β] (f : Fin 4096 → β) :
    ∑ k : Fin 4096, f k
      = ∑ s ∈ range 4, ∑ kk : Fin 1024,
          f ⟨(s % 4) * 1024 + kk.val, by have := kk.isLt; have := Nat.mod_lt s (by decide : 0 < 4); omega⟩ := by
  let g : ℕ → β := fun k => if h : k < 4096 then f ⟨k, h⟩ else 0
  have h1 : ∑ k : Fin 4096, f k = ∑ k ∈ range (4 * 1024), g k := by
    rw [← Fin.sum_univ_eq_sum_range g (4 * 1024)]
    refine Finset.sum_congr rfl fun k _ => ?_
    show f k = (if h : k.val < 4096 then f ⟨k.val, h⟩ else 0)
    rw [dif_pos k.isLt]
  rw [h1, sum_range_mul_blocks]
  refine Finset.sum_congr rfl fun s hs => ?_
  rw [← Fin.sum_univ_eq_sum_range (fun kk => g (s * 1024 + kk)) 1024]
  refine Finset.sum_congr rfl fun kk _ => ?_
  have hs4 : s < 4 := Finset.mem_range.mp hs
  have hmod : s % 4 = s := Nat.mod_eq_of_lt hs4
  have hk := kk.isLt
  show g (s * 1024 + kk.val) = _
  simp only [g]
  rw [dif_pos (by omega)]
  exact congrArg f (Fin.ext (by simp only [hmod]))

end Cert.Algebra
-- ==== Proof.Spec.lean ====
import Idealize.ShloMosaic.PureOps.Ideal
import Idealize.ShloMosaic.Lib.ValueIdx
import proofs.«176086_j4698694222253_1_alg».proof.Proof.Algebra

/-! # The function both programs compute

With `A` the (quantized) activations, 8192 x 4096, `B` the (quantized, transposed) weights, 4096 x 4096,
and `C` the bias as a 1 x 4096 row, the result is the affine map

  out[r, c] = (sum over k < 4096 of A[r, k] * B[k, c]) + C[0, c]

on the extended reals. The tiled program visits the grid point number n = 16 * ib + 4 * jb + s (row tile
`ib`, column tile `jb`, contraction tile `s`) and adds the 1024-term partial sum `tile A B n` into the
accumulator of output tile (ib, jb); the four partial sums of a run add up to the whole contraction. -/

noncomputable section

namespace Cert.Spec

open Idealize.ShloMosaic Idealize.ShloMosaic.ValueIdx

/-- Row `p` of row tile `ib` (the tile number reduced mod 8, so that the index is in range for every natural). -/
abbrev row (ib : ℕ) (p : Fin 1024) : Fin 8192 :=
  ⟨(ib % 8) * 1024 + p.val, by have := p.isLt; have := Nat.mod_lt ib (by decide : 0 < 8); omega⟩
/-- Column (or contraction index) `q` of tile `jb` of an axis of extent 4096 (the tile number reduced mod 4). -/
abbrev col (jb : ℕ) (q : Fin 1024) : Fin 4096 :=
  ⟨(jb % 4) * 1024 + q.val, by have := q.isLt; have := Nat.mod_lt jb (by decide : 0 < 4); omega⟩

/-- The affine map `A · B + C`, entry by entry. -/
def affine (A : (⟨2, ![8192, 4096]⟩ : Shape).Idx → EReal) (B : (⟨2, ![4096, 4096]⟩ : Shape).Idx → EReal)
    (C : (⟨2, ![1, 4096]⟩ : Shape).Idx → EReal) : (⟨2, ![8192, 4096]⟩ : Shape).Idx → EReal :=
  fun i => (∑ k : Fin 4096, A (ix2 (i 0 : Fin 8192) k) * B (ix2 k (i 1 : Fin 4096))) + C (ix2 (0 : Fin 1) (i 1 : Fin 4096))

/-- The affine map reads its third argument only in row 0, and each argument only entry by entry. -/
theorem affine_congr {A A' : (⟨2, ![8192, 4096]⟩ : Shape).Idx → EReal} {B B' : (⟨2, ![4096, 4096]⟩ : Shape).Idx → EReal}
    {C C' : (⟨2, ![1, 4096]⟩ : Shape).Idx → EReal} (hA : ∀ (r : Fin 8192) (k : Fin 4096), A (ix2 r k) = A' (ix2 r k))
    (hB : ∀ (k cc : Fin 4096), B (ix2 k cc) = B' (ix2 k cc)) (hC : ∀ cc : Fin 4096, C (ix2 (0 : Fin 1) cc) = C' (ix2 (0 : Fin 1) cc)) :
    affine A B C = affine A' B' C' := by
  funext i
  obtain ⟨r, cc, rfl⟩ : ∃ (r : Fin 8192) (cc : Fin 4096), i = ix2 r cc := ⟨i 0, i 1, eq_ix2 i⟩
  show (∑ k : Fin 4096, A (ix2 r k) * B (ix2 k cc)) + C (ix2 (0 : Fin 1) cc)
    = (∑ k : Fin 4096, A' (ix2 r k) * B' (ix2 k cc)) + C' (ix2 (0 : Fin 1) cc)
  rw [hC cc, Finset.sum_congr rfl fun k _ => by rw [hA r k, hB k cc]]

/-- The partial product grid point `n` contributes to its output tile: rows of row tile `n / 16`, columns of
    column tile `n / 4`, the 1024 contraction indices of contraction tile `n` (each reduced as in `row` / `col`). -/
def tile (A : (⟨2, ![8192, 4096]⟩ : Shape).Idx → EReal) (B : (⟨2, ![4096, 4096]⟩ : Shape).Idx → EReal) (n : ℕ) :
    (⟨2, ![1024, 1024]⟩ : Shape).Idx → EReal :=
  fun y => ∑ kk : Fin 1024, A (ix2 (row (n / 16) (y 0 : Fin 1024)) (col n kk)) * B (ix2 (col n kk) (col (n / 4) (y 1 : Fin 1024)))

/-- An entry of the affine map inside output tile (b / 16, b / 4), where `b` is the first point of that tile's
    run: zero plus the four partial products of the run's points, plus the bias entry. Only commutativity and
    associativity of addition are used, so this holds with infinite entries too. -/
theorem affine_eq_tiles (A : (⟨2, ![8192, 4096]⟩ : Shape).Idx → EReal) (B : (⟨2, ![4096, 4096]⟩ : Shape).Idx → EReal)
    (C : (⟨2, ![1, 4096]⟩ : Shape).Idx → EReal) (b : ℕ) (hb : b % 4 = 0) (p q : Fin 1024) :
    affine A B C (ix2 (row (b / 16) p) (col (b / 4) q))
      = (0 + ∑ s ∈ Finset.range 4, tile A B (b + s) (ix2 p q)) + C (ix2 (0 : Fin 1) (col (b / 4) q)) := by
  show (∑ k : Fin 4096, A (ix2 (row (b / 16) p) k) * B (ix2 k (col (b / 4) q))) + C (ix2 (0 : Fin 1) (col (b / 4) q)) = _
  rw [zero_add, Cert.Algebra.sum_blocks]
  refine congrArg (· + C (ix2 (0 : Fin 1) (col (b / 4) q))) ?_
  refine Finset.sum_congr rfl fun s hs => ?_
  have hs4 : s < 4 := Finset.mem_range.mp hs
  show _ = ∑ kk : Fin 1024, A (ix2 (row ((b + s) / 16) p) (col (b + s) kk)) * B (ix2 (col (b + s) kk) (col ((b + s) / 4) q))
  refine Finset.sum_congr rfl fun kk _ => ?_
  have e1 : row ((b + s) / 16) p = row (b / 16) p := Fin.ext (by show (b + s) / 16 % 8 * 1024 + p.val = b / 16 % 8 * 1024 + p.val; omega)
  have e2 : col ((b + s) / 4) q = col (b / 4) q := Fin.ext (by show (b + s) / 4 % 4 * 1024 + q.val = b / 4 % 4 * 1024 + q.val; omega)
  have e3 : col (b + s) kk = (⟨(s % 4) * 1024 + kk.val, by have := kk.isLt; have := Nat.mod_lt s (by decide : 0 < 4); omega⟩ : Fin 4096) :=
    Fin.ext (by show (b + s) % 4 * 1024 + kk.val = s % 4 * 1024 + kk.val; omega)
  rw [e1, e2, e3]

end Cert.Spec

end
-- ==== Proof.Blocks.lean ====
import proofs.«176086_j4698694222253_1_alg».proof.Proof.Gen.KernelIdeal.Frame
import proofs.«176086_j4698694222253_1_alg».proof.Proof.Spec
import Idealize.ShloMosaic.Lib.Pipeline.Value
import Idealize.ShloMosaic.Lib.ValueIdx

/-! # The blocks a grid point reads

Grid point number `t` = 16 * ib + 4 * jb + s reads block (ib, s) of the activations, block (s, jb) of the
transposed weights and block (0, jb) of the bias row, and its output block is (ib, jb). An entry of a block is
the array's entry at block index * 1024 + the local coordinate. -/

noncomputable section

namespace Cert.KernelIdeal.Blocks

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- The three arrays the region reads, as it finds them: activations, transposed weights, bias row. -/
abbrev Aarr (c : Dev nD) : (⟨2, ![8192, 4096]⟩ : Shape).Idx → EReal := V m c main_v56
abbrev Barr (c : Dev nD) : (⟨2, ![4096, 4096]⟩ : Shape).Idx → EReal := V m c main_v58
abbrev Carr (c : Dev nD) : (⟨2, ![1, 4096]⟩ : Shape).Idx → EReal := V m c main_v59

/-- The printed index maps in closed form, decided over the 128 grid points. -/
theorem idx_facts : ∀ t : Fin cfg0.N,
    win0_0.index t (0 : Fin 2) = t.val / 16 % 8 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 % 8 ∧ win0_3.index t (1 : Fin 2) = t.val / 4 % 4 :=
  (by decide +kernel : ∀ t : Fin grid0.N, _)

/-- Block (ib, s) of any 8192 x 4096 array, read at entry (p, kk). -/
theorem read_block0 (c : Dev nD) (X : Buf (Elt Ideal) ((c : Thread nD τ).loc main_v56)) (t : Fin cfg0.N) (p kk : Fin 1024) :
    (((cfg0.win 0).blk t).view.read (Elt Ideal) X : Vec Ideal S1024x1024 .bf16) (ix2 p kk)
      = X (ix2 (row (t.val / 16) p) (col t.val kk)) := by
  obtain ⟨e0, e1, -⟩ := idx_facts t
  rw [View.read_apply]
  refine congrArg X (funext fun a => Fin.ext ?_)
  match a with
  | ⟨0, _⟩ => show win0_0.index t (0 : Fin 2) * 1024 + 1 * p.val = t.val / 16 % 8 * 1024 + p.val; rw [e0]; omega
  | ⟨1, _⟩ => show win0_0.index t (1 : Fin 2) * 1024 + 1 * kk.val = t.val % 4 * 1024 + kk.val; rw [e1]; omega

/-- Block (s, jb) of any 4096 x 4096 array, read at entry (kk, q). -/
theorem read_block1 (c : Dev nD) (X : Buf (Elt Ideal) ((c : Thread nD τ).loc main_v58)) (t : Fin cfg0.N) (kk q : Fin 1024) :
    (((cfg0.win 1).blk t).view.read (Elt Ideal) X : Vec Ideal S1024x1024 .bf16) (ix2 kk q)
      = X (ix2 (col t.val kk) (col (t.val / 4) q)) := by
  obtain ⟨-, -, e0, e1, -⟩ := idx_facts t
  rw [View.read_apply]
  refine congrArg X (funext fun a => Fin.ext ?_)
  match a with
  | ⟨0, _⟩ => show win0_1.index t (0 : Fin 2) * 1024 + 1 * kk.val = t.val % 4 * 1024 + kk.val; rw [e0]; omega
  | ⟨1, _⟩ => show win0_1.index t (1 : Fin 2) * 1024 + 1 * q.val = t.val / 4 % 4 * 1024 + q.val; rw [e1]; omega

/-- Block (0, jb) of any 1 x 4096 row, read at entry (0, q). -/
theorem read_block2 (c : Dev nD) (X : Buf (Elt Ideal) ((c : Thread nD τ).loc main_v59)) (t : Fin cfg0.N) (q : Fin 1024) :
    (((cfg0.win 2).blk t).view.read (Elt Ideal) X : Vec Ideal S1x1024 .f32) (ix2 (0 : Fin 1) q)
      = X (ix2 (0 : Fin 1) (col (t.val / 4) q)) := by
  obtain ⟨-, -, -, -, e0, e1, -⟩ := idx_facts t
  rw [View.read_apply]
  refine congrArg X (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val / 4 % 4 * 1024 + q.val; rw [e1]; omega

/-- The three blocks grid point `t` reads, at their literal types. -/
abbrev ablk (c : Dev nD) (t : Fin cfg0.N) : Vec Ideal S1024x1024 .bf16 := iblk m c 0 t
abbrev bblk (c : Dev nD) (t : Fin cfg0.N) : Vec Ideal S1024x1024 .bf16 := iblk m c 1 t
abbrev cblk (c : Dev nD) (t : Fin cfg0.N) : Vec Ideal S1x1024 .f32 := iblk m c 2 t

/-- The activations' block at point `t`, entry (p, kk). -/
theorem blockA (c : Dev nD) (t : Fin cfg0.N) (p kk : Fin 1024) :
    ablk m c t (ix2 p kk) = Aarr m c (ix2 (row (t.val / 16) p) (col t.val kk)) :=
  read_block0 c (V m c main_v56) t p kk

/-- The transposed weights' block at point `t`, entry (kk, q). -/
theorem blockB (c : Dev nD) (t : Fin cfg0.N) (kk q : Fin 1024) :
    bblk m c t (ix2 kk q) = Barr m c (ix2 (col t.val kk) (col (t.val / 4) q)) :=
  read_block1 c (V m c main_v58) t kk q

/-- The bias row's block at point `t`, entry (0, q). -/
theorem blockC (c : Dev nD) (t : Fin cfg0.N) (q : Fin 1024) :
    cblk m c t (ix2 (0 : Fin 1) q) = Carr m c (ix2 (0 : Fin 1) (col (t.val / 4) q)) :=
  read_block2 c (V m c main_v59) t q

end Cert.KernelIdeal.Blocks

end
-- ==== Proof.Fold.lean ====
import proofs.«176086_j4698694222253_1_alg».proof.Proof.Gen.KernelIdeal.Value
import proofs.«176086_j4698694222253_1_alg».proof.Proof.Pieces
import proofs.«176086_j4698694222253_1_alg».proof.Proof.Payload
import proofs.«176086_j4698694222253_1_alg».proof.Proof.Blocks

/-! # The accumulator over a run of four grid points

The four points 4 * r, …, 4 * r + 3 share an output tile and walk the contraction axis. The first resets the
accumulator to zero and adds its partial product; each later one adds its own to what the point before left.
So after the run's last point the accumulator holds, entry by entry, zero plus the sum of the four partial
products — the fold of the run, unrolled once for every run at the same time. -/

set_option maxRecDepth 16384

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx Cert.Spec Cert.KernelIdeal.Blocks

variable (m : (ℓ : Loc nD τ sig) → Buf (Elt Ideal) ℓ)

/-- The partial product grid point `n` contributes, over the arrays the region finds. -/
abbrev part (c : Dev nD) (n : ℕ) : S1024x1024.Idx → EReal := tile (Aarr m c) (Barr m c) n

/-- The product of the two blocks point `t` reads, at entry (p, q), is that partial product. -/
theorem product_eq (c : Dev nD) (t : Fin cfg0.N) (p q : Fin 1024) :
    ∑ kk : Fin 1024, ablk m c t (ix2 p kk) * bblk m c t (ix2 kk q)
      = part m c t.val (ix2 p q) := by
  show _ = ∑ kk : Fin 1024, Aarr m c (ix2 (row (t.val / 16) p) (col t.val kk)) * Barr m c (ix2 (col t.val kk) (col (t.val / 4) q))
  exact Finset.sum_congr rfl fun kk _ => by rw [blockA m c t p kk, blockB m c t kk q]

/-- A point that is not the first of its run adds its partial product to what the accumulator held. -/
theorem step_apply (c : Dev nD) (n : ℕ) (h : n < cfg0.N) (hn : ¬ n % 4 = 0) (acc : Vec Ideal S1024x1024 .f32) (i : S1024x1024.Idx) :
    scAt0_0 m c n h acc i = acc i + part m c n i := by
  obtain ⟨p, q, rfl⟩ : ∃ (p q : Fin 1024), i = ix2 p q := ⟨i 0, i 1, eq_ix2 i⟩
  unfold scAt0_0
  rw [dif_neg hn]
  by_cases h1 : n % 4 = 3
  · rw [dif_pos h1]
    refine (congrFun (Pieces.scratch_last c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => hn ((hcond0_0 (⟨n, h⟩ : Fin cfg0.N)).mp hh)) ((hcond0_1 (⟨n, h⟩ : Fin cfg0.N)).mpr h1) (ablk m c (⟨n, h⟩ : Fin cfg0.N)) (bblk m c (⟨n, h⟩ : Fin cfg0.N)) (cblk m c (⟨n, h⟩ : Fin cfg0.N)) acc) (ix2 p q)).trans ?_
    refine (Payload.update_apply acc (ablk m c (⟨n, h⟩ : Fin cfg0.N)) (bblk m c (⟨n, h⟩ : Fin cfg0.N)) p q).trans ?_
    exact congrArg (fun v => acc (ix2 p q) + v) (product_eq m c (⟨n, h⟩ : Fin cfg0.N) p q)
  · rw [dif_neg h1]
    refine (congrFun (Pieces.scratch_middle c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => hn ((hcond0_0 (⟨n, h⟩ : Fin cfg0.N)).mp hh)) (fun hh => h1 ((hcond0_1 (⟨n, h⟩ : Fin cfg0.N)).mp hh)) (ablk m c (⟨n, h⟩ : Fin cfg0.N)) (bblk m c (⟨n, h⟩ : Fin cfg0.N)) (cblk m c (⟨n, h⟩ : Fin cfg0.N)) acc) (ix2 p q)).trans ?_
    refine (Payload.update_apply acc (ablk m c (⟨n, h⟩ : Fin cfg0.N)) (bblk m c (⟨n, h⟩ : Fin cfg0.N)) p q).trans ?_
    exact congrArg (fun v => acc (ix2 p q) + v) (product_eq m c (⟨n, h⟩ : Fin cfg0.N) p q)

/-- The first point of a run leaves zero plus its partial product, whatever the accumulator held. -/
theorem first_apply (c : Dev nD) (n : ℕ) (h : n < cfg0.N) (hn : n % 4 = 0) (acc : Vec Ideal S1024x1024 .f32) (i : S1024x1024.Idx) :
    scAt0_0 m c n h acc i = 0 + part m c n i := by
  obtain ⟨p, q, rfl⟩ : ∃ (p q : Fin 1024), i = ix2 p q := ⟨i 0, i 1, eq_ix2 i⟩
  have h1 : ¬ n % 4 = 3 := by omega
  unfold scAt0_0
  rw [dif_pos hn, dif_neg h1]
  refine (congrFun (Pieces.scratch_first c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) ((hcond0_0 (⟨n, h⟩ : Fin cfg0.N)).mpr hn) (fun hh => h1 ((hcond0_1 (⟨n, h⟩ : Fin cfg0.N)).mp hh)) (ablk m c (⟨n, h⟩ : Fin cfg0.N)) (bblk m c (⟨n, h⟩ : Fin cfg0.N)) (cblk m c (⟨n, h⟩ : Fin cfg0.N))) (ix2 p q)).trans ?_
  refine (Payload.update_apply (k0_pay1 (F := Ideal)) (ablk m c (⟨n, h⟩ : Fin cfg0.N)) (bblk m c (⟨n, h⟩ : Fin cfg0.N)) p q).trans ?_
  rw [Payload.reset_apply]
  exact congrArg (fun v => (0 : EReal) + v) (product_eq m c (⟨n, h⟩ : Fin cfg0.N) p q)

/-- After the last point `t` of a run the accumulator holds zero plus the run's four partial products. -/
theorem scratch_at_last (c : Dev nD) (t : Fin cfg0.N) (h1 : t.val % 4 = 3) (i : S1024x1024.Idx) :
    (outsAt0 m c t.val t.isLt).2 i = 0 + ∑ s ∈ Finset.range 4, part m c (4 * (t.val / 4) + s) i := by
  rw [soutsAt0_0_eq m c t]
  refine (Pipeline.accAt_add_apply (β := EReal) (fun n h => scAt0_0 m c n h (VS0_0.read (Elt Ideal) VS0_0.junk)) (scAt0_0 m c)
    (fun _ => 0) (part m c) (4 * (t.val / 4)) 3
    (fun h i => first_apply m c _ h (by omega) _ i)
    (fun n h acc i hlo hhi => step_apply m c n h (by omega) acc i)
    (t.val % 4) (by omega) _ i).trans ?_
  rw [h1]

end Cert.KernelIdeal.Fold

end
-- ==== Proof.Final.lean ====
import proofs.«176086_j4698694222253_1_alg».proof.Proof.Fold

/-! # The output array after the run

Output tile (ib, jb) is written back once, after the last point of its run, holding accumulator plus bias row;
by the fold that is the affine map's tile. The 32 written tiles cover the array, so the array ends as the
affine map of the three arrays the region reads. -/

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Spec Cert.KernelIdeal.Blocks Cert.KernelIdeal.Fold

variable (m : (ℓ : Loc nD τ sig) → Buf (Elt Ideal) ℓ) (ρ : Dev nD → PrngReg)

/-- The affine map of the arrays the region finds. -/
abbrev result (c : Dev nD) : S8192x4096.Idx → EReal := affine (Aarr m c) (Barr m c) (Carr m c)

/-- What the output block holds after the last point `t` of a run, at entry (p, q): the affine map at row
    `p` of row tile `t / 16`, column `q` of column tile `t / 4`. -/
theorem out_at_last (c : Dev nD) (t : Fin cfg0.N) (h0 : ¬t.val % 4 = 0) (h1 : t.val % 4 = 3) (p q : Fin 1024) :
    ((outsAt0 m c t.val t.isLt).1 : Vec Ideal S1024x1024 .f32) (ix2 p q)
      = result m c (ix2 (row (t.val / 16) p) (col (t.val / 4) q)) := by
  have hs : k0_pay2 (F := Ideal) (outsAt0 m c (t.val - 1) (Nat.lt_of_le_of_lt (Nat.sub_le _ _) t.isLt)).2 (ablk m c t) (bblk m c t) = (outsAt0 m c t.val t.isLt).2 := by
    rw [outsAt0_C m c t h0 h1]
    dsimp only
    exact (Pieces.scratch_last c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (ablk m c t) (bblk m c t) (cblk m c t) (outsAt0 m c (t.val - 1) (Nat.lt_of_le_of_lt (Nat.sub_le _ _) t.isLt)).2).symm
  rw [outsAt0_C m c t h0 h1]
  dsimp only
  refine (congrFun (Pieces.out_last c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (ablk m c t) (bblk m c t) (cblk m c t) (outsAt0 m c (t.val - 1) (Nat.lt_of_le_of_lt (Nat.sub_le _ _) t.isLt)).2) (ix2 p q)).trans ?_
  refine (Payload.epilogue_apply _ (cblk m c t) p q).trans ?_
  rw [hs, scratch_at_last m c t h1, blockC m c t q]
  have er : row (4 * (t.val / 4) / 16) p = row (t.val / 16) p :=
    Fin.ext (by show 4 * (t.val / 4) / 16 % 8 * 1024 + p.val = t.val / 16 % 8 * 1024 + p.val; omega)
  have ec : col (4 * (t.val / 4) / 4) q = col (t.val / 4) q :=
    Fin.ext (by show 4 * (t.val / 4) / 4 % 4 * 1024 + q.val = t.val / 4 % 4 * 1024 + q.val; omega)
  rw [← er, ← ec]
  exact (affine_eq_tiles (Aarr m c) (Barr m c) (Carr m c) (4 * (t.val / 4)) (by omega) p q).symm

/-- If the output block after the last point `t` of a run is, entry by entry, a whole-array function `G` at the
    tile's rows and columns, then what `t` writes back is its block of `G`. -/
theorem flushed_eq_of (c : Dev nD) (t : Fin cfg0.N) (G : S8192x4096.Idx → EReal)
    (hG : ∀ p q : Fin 1024, ((outsAt0 m c t.val t.isLt).1 : Vec Ideal S1024x1024 .f32) (ix2 p q) = G (ix2 (row (t.val / 16) p) (col (t.val / 4) q))) :
    (dats m 0 c).flushed 3 t = ((cfg0.win 3).blk t).view.read (Elt Ideal) G := by
  obtain ⟨-, -, -, -, -, -, e0, e1⟩ := idx_facts t
  rw [flushed3 m c t]
  funext y
  rw [View.read_apply]
  have hp : (y 0).val < 1024 := Nat.lt_of_lt_of_le (y 0).isLt ((cfg0.win 3).xsize_le (grid0.coords t) 0)
  have hq : (y 1).val < 1024 := Nat.lt_of_lt_of_le (y 1).isLt ((cfg0.win 3).xsize_le (grid0.coords t) 1)
  have hx : (cfg0.win 3).xinj (grid0.coords t) y = ix2 (⟨(y 0).val, hp⟩ : Fin 1024) (⟨(y 1).val, hq⟩ : Fin 1024) :=
    funext fun a => Fin.ext (by match a with | ⟨0, _⟩ => rfl | ⟨1, _⟩ => rfl)
  refine (congrArg (fun z => ((outsAt0 m c t.val t.isLt).1 : Vec Ideal S1024x1024 .f32) z) hx).trans ?_
  refine (hG ⟨(y 0).val, hp⟩ ⟨(y 1).val, hq⟩).trans ?_
  refine congrArg G (funext fun a => Fin.ext ?_)
  match a with
  | ⟨0, _⟩ => show t.val / 16 % 8 * 1024 + (y 0).val = win0_3.index t (0 : Fin 2) * 1024 + 1 * (y 0).val; rw [e0]; omega
  | ⟨1, _⟩ => show t.val / 4 % 4 * 1024 + (y 1).val = win0_3.index t (1 : Fin 2) * 1024 + 1 * (y 1).val; rw [e1]; omega

/-- What a writing point writes back is its block of the affine map. -/
theorem flushed_eq (c : Dev nD) (t : Fin cfg0.N) (hf : (cfg0.win 3).flush t = true) :
    (dats m 0 c).flushed 3 t = ((cfg0.win 3).blk t).view.read (Elt Ideal) (result m c) :=
  flushed_eq_of m c t (result m c) (out_at_last m c t (by have := (flush0_3 t).mp hf; omega) ((flush0_3 t).mp hf))

/-- An index is in point `t`'s output block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v60).slice (win0_3.rect t)).set ↔ _
  rw [View.set_slice_whole, Rect.mem_set_unit]
  exact Iff.rfl

/-- Every index of the array is in the block of the writing point of its tile: point 16 * (r / 1024) + 4 * (c / 1024) + 3. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e0, e1⟩ := idx_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; rw [e0]; omega
  | ⟨1, _⟩ => show win0_3.index t (1 : Fin 2) * 1024 ≤ (i 1).val ∧ (i 1).val < win0_3.index t (1 : Fin 2) * 1024 + 1024; rw [e1]; omega

/-- If every writing point writes back its block of one whole-array function `G`, the output array ends as `G`:
    the written blocks cover it. -/
theorem final_of (c : Dev nD) (G : S8192x4096.Idx → EReal)
    (hG : ∀ t : Fin cfg0.N, (cfg0.win 3).flush t = true → (dats m 0 c).flushed 3 t = ((cfg0.win 3).blk t).view.read (Elt Ideal) G) :
    (dats m 0 c).arrAt 3 cfg0.N = G :=
  (dats m 0 c).arrAt_eq_of_cover 3 G hG cover

/-- The output array after the run is the affine map of the arrays the region reads. -/
theorem final (c : Dev nD) : (dats m 0 c).arrAt 3 cfg0.N = result m c :=
  final_of m c (result m c) (fun t hf => flushed_eq m c t hf)

/-- The kernel program's run: it terminates with the result array at the affine map, the arguments unchanged. -/
theorem run : θ_run defs (onTc (τ := τ) (main (F := Ideal))) ⟨m, fun _ => 0, ρ⟩ fun r => ∀ c : Dev nD,
      r.2.mem ((c : Thread nD τ).loc main_v60) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Final

end
-- ==== Proof.HostK.lean ====
import proofs.«176086_j4698694222253_1_alg».proof.Proof.Gen.KernelIdeal.Frame
import Idealize.ShloMosaic.Lib.StableHlo.Run

/-! # The arrays the region reads, from the host operations before it

The last host operations before the region narrow the quantized activations to bf16, narrow and transpose the
quantized weights, and view the bias as a 1 x 4096 row. Each operation writes its own buffer once, so what the
region finds in those three buffers is that operation applied to what the region finds in its operand's buffer. -/

noncomputable section

namespace Cert.KernelIdeal.HostK

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 4000000 in
/-- The activations window's array: the quantized activations narrowed to bf16. -/
theorem acts_eq (c : Dev nD) :
    V m c main_v56 = truncf .bf16 (V m c main_v27 : FVec F S8192x4096 .f32) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxRecDepth 8192 in
set_option maxHeartbeats 4000000 in
/-- The weights window's array: the quantized weights narrowed to bf16, then transposed. -/
theorem weights_eq (c : Dev nD) :
    V m c main_v58 = transpose S4096x4096 [1, 0] (truncf .bf16 (V m c main_v55 : FVec F S4096x4096 .f32) bitsLt_bf16_f32) transposes_S4096x4096_S4096x4096_1_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxRecDepth 8192 in
set_option maxHeartbeats 4000000 in
/-- The bias window's array: the bias vector viewed as one row. -/
theorem bias_eq (c : Dev nD) :
    V m c main_v59 = shapeCast S1x4096 (m ((c.tc : Thread nD τ).loc main_arg2)) shapeCasts_S4096_S1x4096 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

end Cert.KernelIdeal.HostK

end
-- ==== Proof.Bridge.lean ====
import proofs.«176086_j4698694222253_1_alg».proof.Proof.RefFold
import proofs.«176086_j4698694222253_1_alg».proof.Proof.Gen.KernelIdeal.Frame
import Idealize.ShloMosaic.Lib.StableHlo.Run

/-! # The two programs quantize alike

Both programs begin with the same host operations: the group-wise quantization of the activations and of the
weights (reshape into groups of 32, the group's largest magnitude, its power-of-two scale, divide, round, clip,
multiply back, zero the all-zero groups, reshape back). Unfolding the fold of each program's operations at the
quantized arrays' buffers gives the same expression of the respective argument array, operation for operation;
with the arguments agreeing the two are equal. The expression itself is never written out. -/

noncomputable section

namespace Cert.Bridge

open Idealize.ShloMosaic Idealize.ShloMosaic.TcCoe Idealize.SL.Sem Idealize.ShloMosaic.StableHlo

variable {F : FTy → Type} [FloatOps F]

set_option maxRecDepth 8192 in
set_option maxHeartbeats 4000000 in
/-- The quantized activations the kernel program's region finds are those the reference's operations leave. -/
theorem acts (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.KernelIdeal.Gen.V m c Cert.KernelIdeal.main_v27
      = after (Cert.ReferenceIdeal.ValueP.ops (F := F)) (launchContents m' c) (Proc.devRef .tc Cert.ReferenceIdeal.main_v27) := by
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, List.flatten_cons, List.flatten_nil, List.append_nil, List.cons_append, List.nil_append]
  after_results_simp
  have h0' : launchContents m' c (Proc.devRef .tc Cert.ReferenceIdeal.main_arg0) = m (c, Proc.devRef .tc Cert.KernelIdeal.main_arg0) := h0
  rw [h0']
  rfl

set_option maxRecDepth 8192 in
set_option maxHeartbeats 4000000 in
/-- The quantized weights likewise. -/
theorem weights (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev 1)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Gen.V m c Cert.KernelIdeal.main_v55
      = after (Cert.ReferenceIdeal.ValueP.ops (F := F)) (launchContents m' c) (Proc.devRef .tc Cert.ReferenceIdeal.main_v55) := by
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, List.flatten_cons, List.flatten_nil, List.append_nil, List.cons_append, List.nil_append]
  after_results_simp
  have h1' : launchContents m' c (Proc.devRef .tc Cert.ReferenceIdeal.main_arg1) = m (c, Proc.devRef .tc Cert.KernelIdeal.main_arg1) := h1
  rw [h1']
  rfl

end Cert.Bridge

end
-- ==== Proof.RefTail.lean ====
import proofs.«176086_j4698694222253_1_alg».proof.Proof.Gen.ReferenceIdeal
import proofs.«176086_j4698694222253_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! # The reference's last five operations, entry by entry

After quantizing, the reference transposes the weights, contracts activations against them over the 4096
input features (one `dot_general`), broadcasts the bias over the rows and adds. Over exact arithmetic that is
the affine map of the activations, the transposed weights and the bias row. -/

noncomputable section

namespace Cert.ReferenceIdeal.Tail

open Cert.ReferenceIdeal Cert.ReferenceIdeal.Gen Idealize.ShloMosaic Idealize.ShloMosaic.ValueIdx Cert.Spec

/-- The product's left operand is read at the output's row, -/
theorem lhs_0 (i : S8192x4096.Idx) (q : dot_S8192x4096_S4096x4096_S8192x4096_1_0_0_1_n_n.contr.Idx) :
    (dot_S8192x4096_S4096x4096_S8192x4096_1_0_0_1_n_n.lhsIdx i q 0).val = (i 0).val := by
  unfold DotDims.lhsIdx
  rw [dif_neg (show ¬(0 : Fin S8192x4096.rank) ∈ dot_S8192x4096_S4096x4096_S8192x4096_1_0_0_1_n_n.lhsBatch by decide), dif_pos (show (0 : Fin S8192x4096.rank) ∈ dot_S8192x4096_S4096x4096_S8192x4096_1_0_0_1_n_n.lhsNonContracting by decide)]
  rfl
/-- and at the contraction index on axis 1; -/
theorem lhs_1 (i : S8192x4096.Idx) (q : dot_S8192x4096_S4096x4096_S8192x4096_1_0_0_1_n_n.contr.Idx) :
    (dot_S8192x4096_S4096x4096_S8192x4096_1_0_0_1_n_n.lhsIdx i q 1).val = (q ⟨0, by decide⟩).val :=
  dot_S8192x4096_S4096x4096_S8192x4096_1_0_0_1_n_n.lhsIdx_val_of_single rfl i q
/-- the right operand at the contraction index on axis 0, -/
theorem rhs_0 (i : S8192x4096.Idx) (q : dot_S8192x4096_S4096x4096_S8192x4096_1_0_0_1_n_n.contr.Idx) :
    (dot_S8192x4096_S4096x4096_S8192x4096_1_0_0_1_n_n.rhsIdx i q 0).val = (q ⟨0, by decide⟩).val :=
  dot_S8192x4096_S4096x4096_S8192x4096_1_0_0_1_n_n.rhsIdx_val_of_single rfl i q
/-- and at the output's column on axis 1. -/
theorem rhs_1 (i : S8192x4096.Idx) (q : dot_S8192x4096_S4096x4096_S8192x4096_1_0_0_1_n_n.contr.Idx) :
    (dot_S8192x4096_S4096x4096_S8192x4096_1_0_0_1_n_n.rhsIdx i q 1).val = (i 1).val := by
  unfold DotDims.rhsIdx
  rw [dif_neg (show ¬(1 : Fin S4096x4096.rank) ∈ dot_S8192x4096_S4096x4096_S8192x4096_1_0_0_1_n_n.rhsBatch by decide), dif_pos (show (1 : Fin S4096x4096.rank) ∈ dot_S8192x4096_S4096x4096_S8192x4096_1_0_0_1_n_n.rhsNonContracting by decide)]
  rfl

/-- The host's contraction at entry (r, cc): the sum over the 4096 input features. -/
theorem dot_apply (X : FVec Ideal S8192x4096 .f32) (Y : FVec Ideal S4096x4096 .f32) (r : Fin 8192) (cc : Fin 4096) :
    Host.dotGeneral dot_S8192x4096_S4096x4096_S8192x4096_1_0_0_1_n_n none X Y (ix2 r cc) = ∑ k : Fin 4096, X (ix2 r k) * Y (ix2 k cc) := by
  simp only [Host.dotGeneral]
  rw [Ideal.dotGeneral_apply, ← Equiv.sum_comp (ValueIdx.contrEquiv1 dot_S8192x4096_S4096x4096_S8192x4096_1_0_0_1_n_n 4096 rfl rfl).symm]
  refine Finset.sum_congr rfl fun k _ => ?_
  have hk := ValueIdx.contrEquiv1_symm_val dot_S8192x4096_S4096x4096_S8192x4096_1_0_0_1_n_n 4096 rfl rfl k
  have el : dot_S8192x4096_S4096x4096_S8192x4096_1_0_0_1_n_n.lhsIdx (ix2 r cc) ((ValueIdx.contrEquiv1 dot_S8192x4096_S4096x4096_S8192x4096_1_0_0_1_n_n 4096 rfl rfl).symm k) = ix2 r k := funext fun a => Fin.ext (by
    match a with
    | ⟨0, _⟩ => exact lhs_0 _ _
    | ⟨1, _⟩ => exact (lhs_1 _ _).trans hk)
  have er : dot_S8192x4096_S4096x4096_S8192x4096_1_0_0_1_n_n.rhsIdx (ix2 r cc) ((ValueIdx.contrEquiv1 dot_S8192x4096_S4096x4096_S8192x4096_1_0_0_1_n_n 4096 rfl rfl).symm k) = ix2 k cc := funext fun a => Fin.ext (by
    match a with
    | ⟨0, _⟩ => exact (rhs_0 _ _).trans hk
    | ⟨1, _⟩ => exact rhs_1 _ _)
  rw [el, er]

/-- The bias broadcast to a row and then over all rows reads, at (r, cc), the bias row at (0, cc). -/
theorem bias_apply (R : FVec Ideal S1x4096 .f32) (r : Fin 8192) (cc : Fin 4096) :
    broadcastInDim S8192x4096 ![0, 1] bcast_S1x4096_S8192x4096_0_1 R (ix2 r cc) = R (ix2 (0 : Fin 1) cc) :=
  broadcastInDim_apply _ bcast_S1x4096_S8192x4096_0_1 R (ix2 r cc) (ix2 (0 : Fin 1) cc) (fun a => match a with
    | ⟨0, _⟩ => by show 0 = if (1 : Nat) = 1 then 0 else r.val; rw [if_pos rfl]
    | ⟨1, _⟩ => by show cc.val = if (4096 : Nat) = 1 then 0 else cc.val; rw [if_neg (by decide)])

/-- The bias vector as a row, at (0, cc). -/
theorem bias_row_apply (b : FVec Ideal S4096 .f32) (cc : Fin 4096) :
    broadcastInDim S1x4096 ![1] bcast_S4096_S1x4096_1 b (ix2 (0 : Fin 1) cc) = b (ix1 cc) :=
  broadcastInDim_apply _ bcast_S4096_S1x4096_1 b (ix2 (0 : Fin 1) cc) (ix1 cc) (fun a => match a with
    | ⟨0, _⟩ => by show cc.val = if (4096 : Nat) = 1 then 0 else cc.val; rw [if_neg (by decide)])

/-- The reference's tail is the affine map. -/
theorem tail_eq (X : FVec Ideal S8192x4096 .f32) (Y : FVec Ideal S4096x4096 .f32) (R : FVec Ideal S1x4096 .f32) :
    addf (Host.dotGeneral dot_S8192x4096_S4096x4096_S8192x4096_1_0_0_1_n_n none X Y) (broadcastInDim S8192x4096 ![0, 1] bcast_S1x4096_S8192x4096_0_1 R)
      = affine X Y R := by
  funext i
  obtain ⟨r, cc, rfl⟩ : ∃ (r : Fin 8192) (cc : Fin 4096), i = ix2 r cc := ⟨i 0, i 1, eq_ix2 i⟩
  show Host.dotGeneral dot_S8192x4096_S4096x4096_S8192x4096_1_0_0_1_n_n none X Y (ix2 r cc) + broadcastInDim S8192x4096 ![0, 1] bcast_S1x4096_S8192x4096_0_1 R (ix2 r cc)
    = (∑ k : Fin 4096, X (ix2 r k) * Y (ix2 k cc)) + R (ix2 (0 : Fin 1) cc)
  rw [dot_apply, bias_apply]

end Cert.ReferenceIdeal.Tail

end
-- ==== Proof.RefValue.lean ====
import proofs.«176086_j4698694222253_1_alg».proof.Proof.RefFold
import proofs.«176086_j4698694222253_1_alg».proof.Proof.RefTail

/-! # The reference's result, read off the fold of its operations

Every host operation writes its own buffer once, so the fold of the operations' results at the result buffer is
the last five operations applied to the fold at the two quantized arrays' buffers and to the bias as launched;
by the tail's reading that is the affine map of the quantized activations, the transposed quantized weights
and the bias row. The arguments are written by no operation. -/

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo
open Cert.Spec

variable {F : FTy → Type} [FloatOps F]

/-- What the operations leave in the quantized activations' buffer, -/
abbrev xq (m : (ℓ : Loc nD τ sig) → Buf (Elt F) ℓ) (c : Dev nD) : FVec F S8192x4096 .f32 :=
  after ops (launchContents m c) (Proc.devRef .tc main_v27)
/-- and in the quantized weights' buffer. -/
abbrev wq (m : (ℓ : Loc nD τ sig) → Buf (Elt F) ℓ) (c : Dev nD) : FVec F S4096x4096 .f32 :=
  after ops (launchContents m c) (Proc.devRef .tc main_v55)

set_option maxRecDepth 8192 in
set_option maxHeartbeats 4000000 in
/-- The result buffer holds the last five operations of those two and the bias. -/
theorem result_split (m : (ℓ : Loc nD τ sig) → Buf (Elt F) ℓ) (c : Dev nD) :
    after ops (launchContents m c) (Proc.devRef .tc main_v60)
      = addf (Host.dotGeneral dot_S8192x4096_S4096x4096_S8192x4096_1_0_0_1_n_n none (xq m c) (transpose S4096x4096 [1, 0] (wq m c) transposes_S4096x4096_S4096x4096_1_0))
          (broadcastInDim S8192x4096 ![0, 1] bcast_S1x4096_S8192x4096_0_1 (broadcastInDim S1x4096 ![1] bcast_S4096_S1x4096_1 (m ((c.tc : Thread nD τ).loc main_arg2)))) := by
  dsimp only [xq, wq]
  after_results_simp <;> rfl

set_option maxRecDepth 8192 in
set_option maxHeartbeats 4000000 in
/-- No operation writes an argument. -/
theorem kept_arg0 (m : (ℓ : Loc nD τ sig) → Buf (Elt F) ℓ) (c : Dev nD) :
    after ops (launchContents m c) (Proc.devRef .tc main_arg0) = m ((c.tc : Thread nD τ).loc main_arg0) := by
  after_results_simp <;> rfl
set_option maxRecDepth 8192 in
set_option maxHeartbeats 4000000 in
theorem kept_arg1 (m : (ℓ : Loc nD τ sig) → Buf (Elt F) ℓ) (c : Dev nD) :
    after ops (launchContents m c) (Proc.devRef .tc main_arg1) = m ((c.tc : Thread nD τ).loc main_arg1) := by
  after_results_simp <;> rfl
set_option maxRecDepth 8192 in
set_option maxHeartbeats 4000000 in
theorem kept_arg2 (m : (ℓ : Loc nD τ sig) → Buf (Elt F) ℓ) (c : Dev nD) :
    after ops (launchContents m c) (Proc.devRef .tc main_arg2) = m ((c.tc : Thread nD τ).loc main_arg2) := by
  after_results_simp <;> rfl

/-- The reference's run: it terminates with its result at the affine map of the quantized activations, the
    transposed quantized weights and the bias row, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60)
          = affine (xq m c) (transpose S4096x4096 [1, 0] (wq m c) transposes_S4096x4096_S4096x4096_1_0)
              (broadcastInDim S1x4096 ![1] bcast_S4096_S1x4096_1 (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v60).trans ((result_split m c).trans (Cert.ReferenceIdeal.Tail.tail_eq _ _ _)),
      (h c main_arg0).trans (kept_arg0 m c), (h c main_arg1).trans (kept_arg1 m c), (h c main_arg2).trans (kept_arg2 m c)⟩)
    (run_fold m ρ)

end Cert.ReferenceIdeal.RefValue

end
-- ==== Proof.Operands.lean ====
import proofs.«176086_j4698694222253_1_alg».proof.Proof.Spec
import Idealize.ShloMosaic.Lib.ValueIdx
import Idealize.ShloMosaic.Lib.ValueLayout
import Idealize.ShloMosaic.Lib.Pipeline.Value

/-! # The operands of the two affine maps, entry by entry

The reference feeds its contraction the quantized activations `X`, the transpose of the quantized weights `W`
and the bias broadcast to a row. The kernel program's region reads the quantized activations narrowed to bf16,
the quantized weights narrowed to bf16 and then transposed, and the bias vector viewed as a 1 x 4096 row.
Over the extended reals narrowing is the identity, a transpose reads the mirrored entry, and both forms of the
bias row hold the bias vector: the two affine maps are equal. -/

noncomputable section

namespace Cert.Operands

open Idealize.ShloMosaic Idealize.ShloMosaic.ValueIdx Cert.Spec

theorem agree
    (X X27 : FVec Ideal ⟨2, ![8192, 4096]⟩ .f32) (W W55 : FVec Ideal ⟨2, ![4096, 4096]⟩ .f32)
    (b b' : FVec Ideal ⟨1, ![4096]⟩ .f32)
    (A : FVec Ideal ⟨2, ![8192, 4096]⟩ .bf16) (B : FVec Ideal ⟨2, ![4096, 4096]⟩ .bf16) (C : FVec Ideal ⟨2, ![1, 4096]⟩ .f32)
    (ht ht' : (⟨2, ![4096, 4096]⟩ : Shape).Transposes [1, 0] ⟨2, ![4096, 4096]⟩)
    (hbc : (⟨1, ![4096]⟩ : Shape).BroadcastsInDim ⟨2, ![1, 4096]⟩ ![1])
    (hsc : (⟨1, ![4096]⟩ : Shape).ShapeCasts ⟨2, ![1, 4096]⟩)
    (hlt : FTy.bf16.bits < FTy.f32.bits)
    (hA : A = truncf .bf16 X27 hlt)
    (hB : B = transpose ⟨2, ![4096, 4096]⟩ [1, 0] (truncf .bf16 W55 hlt) ht')
    (hC : C = shapeCast ⟨2, ![1, 4096]⟩ b hsc)
    (hx : X27 = X) (hw : W55 = W) (hb : b' = b) :
    affine X (transpose ⟨2, ![4096, 4096]⟩ [1, 0] W ht) (broadcastInDim ⟨2, ![1, 4096]⟩ ![1] hbc b') = affine A B C := by
  subst hA hB hC hx hw hb
  refine affine_congr ?_ ?_ ?_
  · intro r k
    rfl
  · intro k cc
    rw [transpose_ix2_apply, transpose_ix2_apply]
    rfl
  · intro cc
    rw [shapeCast_a_1a_apply]
    exact broadcastInDim_apply _ hbc b' (ix2 (0 : Fin 1) cc) (ix1 cc) (fun a => match a with
      | ⟨0, _⟩ => by show cc.val = if (4096 : Nat) = 1 then 0 else cc.val; rw [if_neg (by decide)])

end Cert.Operands

end
-- ==== Proof.lean ====
/-
  The affine layer with block-floating-point operands: `out = Q(x) · Q(w)ᵀ + bias`, where `Q` quantizes groups of 32
  consecutive entries to 8-bit mantissas with the group's shared power-of-two scale.

  Both programs quantize on the host with the same operations. The kernel program then narrows the quantized
  arrays to bf16 (the identity on extended reals), transposes the weights, and runs a tiled matrix product on an
  8 x 4 x 4 grid: output tile (ib, jb) is accumulated in scratch over the four contraction tiles, 1024 terms at a
  time, and written back with the bias row added after the fourth. The reference contracts all 4096 terms in one
  `dot_general` and adds the broadcast bias.

  Over the extended reals both are the affine map  out[r, c] = Σ_k Q(x)[r, k] · Q(w)[c, k] + bias[c]:
  the four partial sums of a run add up to the whole contraction (associativity and commutativity of addition
  only, so infinite entries do no harm and the precondition is never opened), and the quantized operands are the
  same because the two host prefixes are the same operations of arguments that agree.

  Modules: Algebra (the long sum in blocks), Spec (the affine map and its tiles), Pieces / Payload (what the body
  leaves, as arithmetic at an entry), Blocks (which entries a grid point reads), Fold (the accumulator over a run),
  Final (the output array after the kernel's run), HostK (the last host operations before the region),
  RefTail / RefValue (the reference's last operations and its run), Bridge (the shared quantization),
  Operands (the two affine maps' operands, entry by entry). RefFold is the generated reference run with its post
  left as the fold of the operations.
-/
import proofs.«176086_j4698694222253_1_alg».proof.Defs
import proofs.«176086_j4698694222253_1_alg».proof.Proof.Gen.Kernel
import proofs.«176086_j4698694222253_1_alg».proof.Proof.Gen.Kernel.Skeleton
import proofs.«176086_j4698694222253_1_alg».proof.Proof.Gen.Kernel.Launch
import proofs.«176086_j4698694222253_1_alg».proof.Proof.Gen.Kernel.Points
import proofs.«176086_j4698694222253_1_alg».proof.Proof.Gen.Kernel.Frame
import proofs.«176086_j4698694222253_1_alg».proof.Proof.Gen.KernelIdeal
import proofs.«176086_j4698694222253_1_alg».proof.Proof.Gen.KernelIdeal.Skeleton
import proofs.«176086_j4698694222253_1_alg».proof.Proof.Gen.KernelIdeal.Launch
import proofs.«176086_j4698694222253_1_alg».proof.Proof.Gen.KernelIdeal.Points
import proofs.«176086_j4698694222253_1_alg».proof.Proof.Gen.KernelIdeal.Frame
import proofs.«176086_j4698694222253_1_alg».proof.Proof.Gen.KernelIdeal.Value
import proofs.«176086_j4698694222253_1_alg».proof.Proof.Gen.ReferenceIdeal
import proofs.«176086_j4698694222253_1_alg».proof.Proof.Gen.Pre_finite_inputs
import proofs.«176086_j4698694222253_1_alg».proof.Proof.Final
import proofs.«176086_j4698694222253_1_alg».proof.Proof.HostK
import proofs.«176086_j4698694222253_1_alg».proof.Proof.Bridge
import proofs.«176086_j4698694222253_1_alg».proof.Proof.RefValue
import proofs.«176086_j4698694222253_1_alg».proof.Proof.Operands
import Idealize.ShloMosaic.Adequacy
import Idealize.ShloMosaic.Init
import Idealize.ShloMosaic.Lib.ValueLayout

noncomputable section

namespace Cert.Proof

open Idealize.ShloMosaic Idealize.ShloMosaic.TcCoe Idealize.SL.Sem Idealize.ShloMosaic.ValueIdx Cert.Spec

/-! ## The frames -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.RefValue.run m ρ)

/-! ## The two results are one function of the arguments -/

/-- From arguments that agree, the reference's affine map (quantized activations, transposed quantized weights,
    bias row) is the kernel program's (the arrays its region reads): the operands are equal entry by entry, given
    what the last host operations before the region do and that both programs quantize alike. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    affine (Cert.ReferenceIdeal.RefValue.xq m' c)
        (transpose Cert.ReferenceIdeal.S4096x4096 [1, 0] (Cert.ReferenceIdeal.RefValue.wq m' c) Cert.ReferenceIdeal.Gen.transposes_S4096x4096_S4096x4096_1_0)
        (broadcastInDim Cert.ReferenceIdeal.S1x4096 ![1] Cert.ReferenceIdeal.Gen.bcast_S4096_S1x4096_1 (m' ((c.tc : Thread Cert.ReferenceIdeal.nD Cert.ReferenceIdeal.τ).loc Cert.ReferenceIdeal.main_arg2)))
      = Cert.KernelIdeal.Final.result m c :=
  Cert.Operands.agree
    (Cert.ReferenceIdeal.RefValue.xq m' c) (Cert.KernelIdeal.Gen.V m c Cert.KernelIdeal.main_v27)
    (Cert.ReferenceIdeal.RefValue.wq m' c) (Cert.KernelIdeal.Gen.V m c Cert.KernelIdeal.main_v55)
    (m ((c.tc : Thread Cert.KernelIdeal.nD Cert.KernelIdeal.τ).loc Cert.KernelIdeal.main_arg2))
    (m' ((c.tc : Thread Cert.ReferenceIdeal.nD Cert.ReferenceIdeal.τ).loc Cert.ReferenceIdeal.main_arg2))
    (Cert.KernelIdeal.Gen.V m c Cert.KernelIdeal.main_v56) (Cert.KernelIdeal.Gen.V m c Cert.KernelIdeal.main_v58)
    (Cert.KernelIdeal.Gen.V m c Cert.KernelIdeal.main_v59)
    Cert.ReferenceIdeal.Gen.transposes_S4096x4096_S4096x4096_1_0 Cert.KernelIdeal.Gen.transposes_S4096x4096_S4096x4096_1_0
    Cert.ReferenceIdeal.Gen.bcast_S4096_S1x4096_1 Cert.KernelIdeal.Gen.shapeCasts_S4096_S1x4096 Cert.KernelIdeal.Gen.bitsLt_bf16_f32
    (Cert.KernelIdeal.HostK.acts_eq m c) (Cert.KernelIdeal.HostK.weights_eq m c) (Cert.KernelIdeal.HostK.bias_eq m c)
    (Cert.Bridge.acts m m' c h0) (Cert.Bridge.weights m m' c h1) h2

/-! ## The claims -/

/-- At the ideal instance the kernel program's result array ends at the affine map of the arrays its region
    reads, the reference's at the affine map of its quantized operands: one function of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  exact (θ_run Cert.ReferenceIdeal.defs _ _).mono
    (fun _ h c => ⟨(h c).1.trans (results_agree m m' c (hagree c).1 (hagree c).2.1 (hagree c).2.2), (h c).2⟩)
    (Cert.ReferenceIdeal.RefValue.run m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
